-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x32 : Shape := ⟨2, ![512, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S8192x512 .f32) (main_arg1 : FVec F S512x32 .f32) (main_arg2 : FVec F S32 .f32) (main_arg3 : FVec F S32x1 .f32) (main_arg4 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg3
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg4 main_v13 main_v16
-- ==== Kernel.lean ====
abbrev S8192x512 : Shape := ⟨2, ![8192, 512]⟩
abbrev S512x32 : Shape := ⟨2, ![512, 32]⟩
abbrev S32 : Shape := ⟨1, ![32]⟩
abbrev S32x1 : Shape := ⟨2, ![32, 1]⟩
abbrev S1 : Shape := ⟨1, ![1]⟩
abbrev S8192x1 : Shape := ⟨2, ![8192, 1]⟩
abbrev S2048x512 : Shape := ⟨2, ![2048, 512]⟩
abbrev S2048x1 : Shape := ⟨2, ![2048, 1]⟩
abbrev S2048x32 : Shape := ⟨2, ![2048, 32]⟩
abbrev S1x32 : Shape := ⟨2, ![1, 32]⟩
abbrev S1x8192 : Shape := ⟨2, ![1, 8192]⟩
abbrev S8192x8192 : Shape := ⟨2, ![8192, 8192]⟩
abbrev S1x2048 : Shape := ⟨2, ![1, 2048]⟩
abbrev S2048x2048 : Shape := ⟨2, ![2048, 2048]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S512x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S8192x1, .f32⟩
  | .hbm, ⟨6, _⟩ => ⟨S1x8192, .f32⟩
  | .hbm, ⟨7, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x32, .f32⟩
  | .local _ .vmem, ⟨3, _⟩ => ⟨S32, .f32⟩
  | .local _ .vmem, ⟨4, _⟩ => ⟨S32x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S1x2048, .f32⟩
  | .local _ .vmem, ⟨10, _⟩ => ⟨S1x2048, .f32⟩
  | .local _ .vmem, ⟨11, _⟩ => ⟨S1, .f32⟩
  | .local _ .vmem, ⟨12, _⟩ => ⟨S2048x2048, .f32⟩
  | .local _ .vmem, ⟨13, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S2048x1_S2048x1_0_0 : ∀ a, (![0, 0] : Fin 2 → Nat) a + S2048x1.size a ≤ S2048x1.size a
  h_S2048x1 : 0 < S2048x1.numel
  shapeCasts_S8192x1_S1x8192 : S8192x1.ShapeCasts S1x8192
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1_S1_0 : ∀ a, (![0] : Fin 1 → Nat) a + S1.size a ≤ S1.size a
  h_S1 : 0 < S1.numel
  broadcasts_S2048x1_S2048x2048 : S2048x1.Broadcasts S2048x2048
  broadcasts_S1x2048_S2048x2048 : S1x2048.Broadcasts S2048x2048
  inpos_S1_p0 : ∀ a, (![0] : Fin 1 → Nat) a < S1.size a
  inb_S2048x2048_S2048x2048_0_0 : ∀ a, (![0, 0] : Fin 2 → Nat) a + S2048x2048.size a ≤ S2048x2048.size a
  h_S2048x2048 : 0 < S2048x2048.numel
  dot_S2048x512_S512x32_S2048x32_1_0_0_1_n_n_wf : DotDims.WF S2048x512 S512x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S8192x1.size a
  hwx1_0 : ∀ i : grid1.Coords, EltTy.bits .f32 = 32 ∨ (Rect.block (s := S8192x1) S2048x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .f32 = 32 ∨ (Rect.block (s := S1x8192) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S8192x8192.size a
  hwx1_3 : ∀ i : grid1.Coords, EltTy.bits .f32 = 32 ∨ (Rect.block (s := S8192x8192) S2048x2048.size (cc1_transform_3 i) (hinb1_3 i)).WholeWords (EltTy.packing .f32)

variable [Facts₀]

def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x512 : Shape := ⟨2, ![8192, 512]⟩
abbrev S512x32 : Shape := ⟨2, ![512, 32]⟩
abbrev S32 : Shape := ⟨1, ![32]⟩
abbrev S32x1 : Shape := ⟨2, ![32, 1]⟩
abbrev S1 : Shape := ⟨1, ![1]⟩
abbrev S8192x32 : Shape := ⟨2, ![8192, 32]⟩
abbrev S1x32 : Shape := ⟨2, ![1, 32]⟩
abbrev S_ : Shape := ⟨0, ![]⟩
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32, .f32⟩
  | .hbm, ⟨2, _⟩ => ⟨S32, .f32⟩
  | .hbm, ⟨3, _⟩ => ⟨S32x1, .f32⟩
  | .hbm, ⟨4, _⟩ => ⟨S1, .f32⟩
  | .hbm, ⟨5, _⟩ => ⟨S8192x32, .f32⟩
  | .hbm, ⟨6, _⟩ => ⟨S1x32, .f32⟩
  | .hbm, ⟨7, _⟩ => ⟨S8192x32, .f32⟩
  | .hbm, ⟨8, _⟩ => ⟨S8192x32, .f32⟩
  | .hbm, ⟨9, _⟩ => ⟨S_, .f32⟩
  | .hbm, ⟨10, _⟩ => ⟨S8192x32, .f32⟩
  | .hbm, ⟨11, _⟩ => ⟨S8192x32, .f32⟩
  | .hbm, ⟨12, _⟩ => ⟨S8192x1, .f32⟩
  | .hbm, ⟨13, _⟩ => ⟨S8192, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  shapeCasts_S1_S_ : S1.ShapeCasts S_
  bcast_S_S8192x8192 : S_.BroadcastsInDim S8192x8192 (![] : Fin 0 → Fin S8192x8192.rank)
  dot_S8192x512_S512x32_S8192x32_1_0_0_1_n_n_wf : DotDims.WF S8192x512 S512x32 S8192x32 [1] [0] [0] [1] [] []
  dot_S8192x32_S32x1_S8192x1_1_0_0_1_n_n_wf : DotDims.WF S8192x32 S32x1 S8192x1 [1] [0] [0] [1] [] []

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

class Facts : Prop extends Facts₀ where

variable [Facts]
-- ==== Proof.Spec.lean ====
/-
  The function both programs compute, index by index over the extended reals, and the layout reads the bridge needs.

  For row `r` of the 8192 × 512 input `x`: the hidden unit `k` is `max (∑_d x[r,d] · W1[d,k] + b1[k]) 0`, the row's
  projection is `proj r = ∑_k hidden r k · w2[k,0]`, and the result at `(i, j)` is `(proj i + proj j) + b2[0]`.
  The zero of the maximum is kept as the float word both programs print for it.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

/-- Hidden unit `k` of row `r`: the affine map of the row, cut below at zero. -/
def hidden (x : (⟨2, ![8192, 512]⟩ : Shape).Idx → EReal) (w1 : (⟨2, ![512, 32]⟩ : Shape).Idx → EReal)
    (b1 : (⟨1, ![32]⟩ : Shape).Idx → EReal) (r : Fin 8192) (k : Fin 32) : EReal :=
  max ((∑ d : Fin 512, x (ix2 r d) * w1 (ix2 d k)) + b1 (ix1 k)) (Ideal.ofBits .f32 0x00000000#32)

/-- The projection of row `r`: its hidden units against the one column of `w2`. -/
def proj (x : (⟨2, ![8192, 512]⟩ : Shape).Idx → EReal) (w1 : (⟨2, ![512, 32]⟩ : Shape).Idx → EReal)
    (b1 : (⟨1, ![32]⟩ : Shape).Idx → EReal) (w2 : (⟨2, ![32, 1]⟩ : Shape).Idx → EReal) (r : Fin 8192) : EReal :=
  ∑ k : Fin 32, hidden x w1 b1 r k * w2 (ix2 k (0 : Fin 1))

/-- The projections as the 8192 × 1 column the first kernel writes. -/
def projCol (x : (⟨2, ![8192, 512]⟩ : Shape).Idx → EReal) (w1 : (⟨2, ![512, 32]⟩ : Shape).Idx → EReal)
    (b1 : (⟨1, ![32]⟩ : Shape).Idx → EReal) (w2 : (⟨2, ![32, 1]⟩ : Shape).Idx → EReal) :
    (⟨2, ![8192, 1]⟩ : Shape).Idx → EReal := fun i => proj x w1 b1 w2 (i 0)

/-- The pairwise sum of a column and a row, plus one scalar: what the second kernel writes from its three operands. -/
def pairSum (a : (⟨2, ![8192, 1]⟩ : Shape).Idx → EReal) (b : (⟨2, ![1, 8192]⟩ : Shape).Idx → EReal)
    (s : (⟨1, ![1]⟩ : Shape).Idx → EReal) : (⟨2, ![8192, 8192]⟩ : Shape).Idx → EReal :=
  fun i => a (ix2 (i 0) (0 : Fin 1)) + b (ix2 (0 : Fin 1) (i 1)) + s (ix1 (0 : Fin 1))

/-- The result: `(proj i + proj j) + b2[0]`. -/
def gaps (x : (⟨2, ![8192, 512]⟩ : Shape).Idx → EReal) (w1 : (⟨2, ![512, 32]⟩ : Shape).Idx → EReal)
    (b1 : (⟨1, ![32]⟩ : Shape).Idx → EReal) (w2 : (⟨2, ![32, 1]⟩ : Shape).Idx → EReal)
    (b2 : (⟨1, ![1]⟩ : Shape).Idx → EReal) : (⟨2, ![8192, 8192]⟩ : Shape).Idx → EReal :=
  fun i => proj x w1 b1 w2 (i 0) + proj x w1 b1 w2 (i 1) + b2 (ix1 (0 : Fin 1))

/-! ## Layout reads -/

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column reshaped to the `[1, a]` row reads, at `(u, j)`, the column at row `j`. -/
theorem shapeCast_a1_1a_apply {a : ℕ} (x : (⟨2, ![a, 1]⟩ : Shape).Idx → α)
    (h : (⟨2, ![a, 1]⟩ : Shape).ShapeCasts ⟨2, ![1, a]⟩) (u : Fin 1) (j : Fin a) :
    shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.zero_mul, Nat.zero_add, Nat.mul_one, Nat.add_zero])

/-- The result is the pairwise sum of the projections' column, the same column laid as a row, and `b2`. -/
theorem gaps_eq_pairSum (x : (⟨2, ![8192, 512]⟩ : Shape).Idx → EReal) (w1 : (⟨2, ![512, 32]⟩ : Shape).Idx → EReal)
    (b1 : (⟨1, ![32]⟩ : Shape).Idx → EReal) (w2 : (⟨2, ![32, 1]⟩ : Shape).Idx → EReal)
    (b2 : (⟨1, ![1]⟩ : Shape).Idx → EReal) (h : (⟨2, ![8192, 1]⟩ : Shape).ShapeCasts ⟨2, ![1, 8192]⟩) :
    pairSum (projCol x w1 b1 w2) (shapeCast ⟨2, ![1, 8192]⟩ (projCol x w1 b1 w2) h) b2 = gaps x w1 b1 w2 b2 := by
  funext i
  obtain ⟨p, q, rfl⟩ : ∃ (p : Fin 8192) (q : Fin 8192), i = ix2 p q := ⟨i 0, i 1, eq_ix2 i⟩
  show projCol x w1 b1 w2 (ix2 p (0 : Fin 1)) + shapeCast ⟨2, ![1, 8192]⟩ (projCol x w1 b1 w2) h (ix2 (0 : Fin 1) q) + b2 (ix1 (0 : Fin 1))
    = proj x w1 b1 w2 p + proj x w1 b1 w2 q + b2 (ix1 (0 : Fin 1))
  rw [shapeCast_a1_1a_apply]
  rfl

end Cert.Spec

end
-- ==== Proof.PairRegion.lean ====
/-
  The second kernel's array after its run. At grid point `(i, j)` the body reads rows `2048·i …` of the projections'
  column, columns `2048·j …` of the same projections laid as a row, and the one word of `b2`, and stores
  `(column[p] + row[q]) + b2[0]` at `(p, q)` of its 2048 × 2048 block. The sixteen blocks tile the 8192 × 8192 result, so
  the array ends as the pairwise sum `Spec.pairSum` of whatever the region found in its three operand arrays.
-/
import proofs.«163449_j7275674599529_1_alg».proof.Proof.Gen.KernelIdeal.Frame
import proofs.«163449_j7275674599529_1_alg».proof.Proof.Spec

set_option maxRecDepth 16384

noncomputable section

namespace Cert.KernelIdeal.PairRegion

open Cert.KernelIdeal Cert.KernelIdeal.Gen
open Idealize.ShloMosaic Idealize.ShloMosaic.TcCoe Idealize.ShloMosaic.ValueIdx
open Idealize.SL.Sem

theorem zero2 : (![0, 0] : Fin 2 → Nat) = fun _ => 0 := funext fun a => by fin_cases a <;> rfl
theorem zero1 : (![0] : Fin 1 → Nat) = fun _ => 0 := funext fun a => by fin_cases a; rfl

/-- The stored value at `(p, q)`: the column's entry of row `p` plus the row's entry of column `q`, plus the scalar. -/
theorem pay_apply (v0 : Vec Ideal S2048x1 .f32) (v2 : Vec Ideal S1x2048 .f32) (v4 : Vec Ideal S1 .f32) (p q : Fin 2048) :
    k1_pay1 (F := Ideal) v0 v2 v4 (ix2 p q)
      = v0 (ix2 p (0 : Fin 1)) + v2 (ix2 (0 : Fin 1) q) + v4 (ix1 (0 : Fin 1)) := by
  unfold k1_pay1
  show broadcastTo S2048x2048 (shapeCast S2048x1 v0 shapeCasts_S2048x1_S2048x1) broadcasts_S2048x1_S2048x2048 (ix2 p q)
      + broadcastTo S2048x2048 (shapeCast S1x2048 v2 shapeCasts_S1x2048_S1x2048) broadcasts_S1x2048_S2048x2048 (ix2 p q)
      + extractAt ![0] v4 inpos_S1_p0 = _
  rw [shapeCast_self, shapeCast_self, Cert.Spec.broadcastTo_a1_ab_apply, ValueIdx.broadcastTo_1b_ab_apply]
  refine congrArg (v0 (ix2 p (0 : Fin 1)) + v2 (ix2 (0 : Fin 1) q) + ·) ?_
  exact congrArg v4 (funext fun a => by match a with | ⟨0, _⟩ => rfl)

variable (V : (c : Dev nD) → (b : Ref sig .tc) → Buf (Elt Ideal) ((c : Thread nD τ).loc b))

/-- The three operand arrays as the region finds them, at their literal types. -/
abbrev colArr (c : Dev nD) : (⟨2, ![8192, 1]⟩ : Shape).Idx → EReal := V c main_v0
abbrev rowArr (c : Dev nD) : (⟨2, ![1, 8192]⟩ : Shape).Idx → EReal := V c main_v1
abbrev oneArr (c : Dev nD) : (⟨1, ![1]⟩ : Shape).Idx → EReal := V c main_arg4

/-- The printed index maps over the grid: the column's block moves with the output's row block, the row's block with
    its column block, the scalar's block stays, and the output's block indices run over `0 … 3`. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 1) = 0
    ∧ win1_3.index t (0 : Fin 2) ≤ 3 ∧ win1_3.index t (1 : Fin 2) ≤ 3 :=
  (by decide +kernel : ∀ t : Fin grid1.N, _)

/-- Every pair of block indices is some point's. -/
theorem idx_onto : ∀ (q0 : Fin 4) (q1 : Fin 4), ∃ t : Fin cfg1.N, win1_3.index t = ![q0.val, q1.val] :=
  (by decide +kernel : ∀ (q0 : Fin 4) (q1 : Fin 4), ∃ t : Fin grid1.N, win1_3.index t = ![q0.val, q1.val])

/-- What point `t` writes back is block `t` of the pairwise sum of the operand arrays as the region finds them. -/
theorem flushed_eq (c : Dev nD) (t : Fin cfg1.N) :
    (dat1 V c).flushed 3 t
      = ((cfg1.win 3).blk t).view.read (Elt Ideal) (Cert.Spec.pairSum (colArr V c) (rowArr V c) (oneArr V c)) := by
  show (cfg1.win 3).cut (grid1.coords t) ((dat1 V c).after 3 t) = _
  rw [after1_3]
  unfold out1_3
  rw [View.canon_unit_zero zero2]
  simp only [View.ld_unit_zero (S := S2048x1) zero2, View.ld_unit_zero (S := S1x2048) zero2, View.ld_unit_zero (S := S1) zero1]
  obtain ⟨e0, e1, e2, e3, e4, -, -⟩ := idx_facts t
  funext j
  obtain ⟨p, q, rfl⟩ : ∃ (p : Fin 2048) (q : Fin 2048), j = ix2 p q := ⟨j 0, j 1, eq_ix2 j⟩
  refine (pay_apply (iblk1 V c 0 t) (iblk1 V c 1 t) (iblk1 V c 2 t) p q).trans ?_
  show colArr V c (((cfg1.win 0).blk t).view.emb (ix2 p (0 : Fin 1))) + rowArr V c (((cfg1.win 1).blk t).view.emb (ix2 (0 : Fin 1) q))
      + oneArr V c (((cfg1.win 2).blk t).view.emb (ix1 (0 : Fin 1)))
    = Cert.Spec.pairSum (colArr V c) (rowArr V c) (oneArr V c) (((cfg1.win 3).blk t).view.emb (ix2 p q))
  have h0 : ((cfg1.win 0).blk t).view.emb (ix2 p (0 : Fin 1)) = ix2 ((((cfg1.win 3).blk t).view.emb (ix2 p q)) 0) (0 : Fin 1) := by
    funext a; apply Fin.ext
    match a with
    | ⟨0, _⟩ => show win1_0.index t (0 : Fin 2) * 2048 + 1 * p.val = win1_3.index t (0 : Fin 2) * 2048 + 1 * p.val; omega
    | ⟨1, _⟩ => show win1_0.index t (1 : Fin 2) * 1 + 1 * 0 = 0; omega
  have h1 : ((cfg1.win 1).blk t).view.emb (ix2 (0 : Fin 1) q) = ix2 (0 : Fin 1) ((((cfg1.win 3).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 2048 + 1 * q.val = win1_3.index t (1 : Fin 2) * 2048 + 1 * q.val; omega
  have h2 : ((cfg1.win 2).blk t).view.emb (ix1 (0 : Fin 1)) = ix1 (0 : Fin 1) := by
    funext a; apply Fin.ext
    match a with
    | ⟨0, _⟩ => show win1_2.index t (0 : Fin 1) * 1 + 1 * 0 = 0; omega
  rw [h0, h1, h2]
  rfl

/-- An index of the result is in point `t`'s block iff each coordinate is in the block's range on its axis. -/
theorem mem_blk (t : Fin cfg1.N) (i : S8192x8192.Idx) :
    i ∈ ((cfg1.win 3).blk t).view.set ↔ ∀ a : Fin 2, win1_3.index t a * S2048x2048.size a ≤ (i a).val ∧ (i a).val < win1_3.index t a * S2048x2048.size a + S2048x2048.size a := by
  show i ∈ ((View.whole main_v2).slice (win1_3.rect t)).set ↔ _
  rw [View.set_slice_whole, Rect.mem_set_unit]
  exact Iff.rfl

/-- The sixteen blocks cover the result: index `(r, s)` lies in the block of the point with block indices `(r / 2048, s / 2048)`. -/
theorem cover (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win1_3.index t (0 : Fin 2) = (i 0).val / 2048 := congrFun ht 0
  have q1 : win1_3.index t (1 : Fin 2) = (i 1).val / 2048 := congrFun ht 1
  refine ⟨t, flush1_3 t, ?_⟩
  rw [mem_blk]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 2048 ≤ (i 1).val ∧ (i 1).val < win1_3.index t (1 : Fin 2) * 2048 + 2048; omega

/-- The result array after the region: the pairwise sum of the three operand arrays as the region found them. -/
theorem final (c : Dev nD) :
    (dat1 V c).arrAt 3 cfg1.N = Cert.Spec.pairSum (colArr V c) (rowArr V c) (oneArr V c) :=
  (dat1 V c).arrAt_eq_of_cover 3 _ (fun t _ => flushed_eq V c t) cover

end Cert.KernelIdeal.PairRegion

end
-- ==== Proof.ProjRegion.lean ====
/-
  The first kernel's array after its run. At grid point `t` the body reads rows `2048·t …` of `x` and the whole of
  `W1`, `b1`, `w2`; its two matrix products into zero accumulators are plain sums at the ideal values and the changes of
  float format are the identity, so it stores `∑_k max (∑_d x[r,d]·W1[d,k] + b1[k]) 0 · w2[k,0]` for each of its rows. The
  four blocks tile the 8192 × 1 column, so the array ends as `Spec.projCol` of what the region found in its operands.
-/
import proofs.«163449_j7275674599529_1_alg».proof.Proof.Gen.KernelIdeal.Frame
import proofs.«163449_j7275674599529_1_alg».proof.Proof.Spec

set_option maxRecDepth 16384

noncomputable section

namespace Cert.KernelIdeal.ProjRegion

open Cert.KernelIdeal Cert.KernelIdeal.Gen
open Idealize.ShloMosaic Idealize.ShloMosaic.TcCoe Idealize.ShloMosaic.ValueIdx
open Idealize.SL.Sem

theorem zero2 : (![0, 0] : Fin 2 → Nat) = fun _ => 0 := funext fun a => by fin_cases a <;> rfl
theorem zero1 : (![0] : Fin 1 → Nat) = fun _ => 0 := funext fun a => by fin_cases a; rfl

/-! ## The two matrix products read at an index -/

theorem lhsA_0 (i : S2048x32.Idx) (q : dot_S2048x512_S512x32_S2048x32_1_0_0_1_n_n.contr.Idx) :
    (dot_S2048x512_S512x32_S2048x32_1_0_0_1_n_n.lhsIdx i q 0).val = (i 0).val := by
  unfold DotDims.lhsIdx
  rw [dif_neg (show ¬(0 : Fin S2048x512.rank) ∈ dot_S2048x512_S512x32_S2048x32_1_0_0_1_n_n.lhsBatch by decide), dif_pos (show (0 : Fin S2048x512.rank) ∈ dot_S2048x512_S512x32_S2048x32_1_0_0_1_n_n.lhsNonContracting by decide)]
  rfl
theorem lhsA_1 (i : S2048x32.Idx) (q : dot_S2048x512_S512x32_S2048x32_1_0_0_1_n_n.contr.Idx) :
    (dot_S2048x512_S512x32_S2048x32_1_0_0_1_n_n.lhsIdx i q 1).val = (q ⟨0, by decide⟩).val :=
  dot_S2048x512_S512x32_S2048x32_1_0_0_1_n_n.lhsIdx_val_of_single rfl i q
theorem rhsA_0 (i : S2048x32.Idx) (q : dot_S2048x512_S512x32_S2048x32_1_0_0_1_n_n.contr.Idx) :
    (dot_S2048x512_S512x32_S2048x32_1_0_0_1_n_n.rhsIdx i q 0).val = (q ⟨0, by decide⟩).val :=
  dot_S2048x512_S512x32_S2048x32_1_0_0_1_n_n.rhsIdx_val_of_single rfl i q
theorem rhsA_1 (i : S2048x32.Idx) (q : dot_S2048x512_S512x32_S2048x32_1_0_0_1_n_n.contr.Idx) :
    (dot_S2048x512_S512x32_S2048x32_1_0_0_1_n_n.rhsIdx i q 1).val = (i 1).val := by
  unfold DotDims.rhsIdx
  rw [dif_neg (show ¬(1 : Fin S512x32.rank) ∈ dot_S2048x512_S512x32_S2048x32_1_0_0_1_n_n.rhsBatch by decide), dif_pos (show (1 : Fin S512x32.rank) ∈ dot_S2048x512_S512x32_S2048x32_1_0_0_1_n_n.rhsNonContracting by decide)]
  rfl

/-- The first product into the zero accumulator, at `(p, k)`: row `p` of the left operand against column `k` of the right. -/
theorem matmulA_apply (a : FVec Ideal S2048x512 .bf16) (b : FVec Ideal S512x32 .bf16) (p : Fin 2048) (k : Fin 32) :
    matmul dot_S2048x512_S512x32_S2048x32_1_0_0_1_n_n none a b (constant S2048x32 .f32 0x00000000#32) (ix2 p k)
      = ∑ d : Fin 512, a (ix2 p d) * b (ix2 d k) := by
  simp only [matmul]
  rw [Ideal.matmul_constant_zero_apply, ← Equiv.sum_comp (ValueIdx.contrEquiv1 dot_S2048x512_S512x32_S2048x32_1_0_0_1_n_n 512 rfl rfl).symm]
  refine Finset.sum_congr rfl fun d _ => ?_
  have hd := ValueIdx.contrEquiv1_symm_val dot_S2048x512_S512x32_S2048x32_1_0_0_1_n_n 512 rfl rfl d
  have el : dot_S2048x512_S512x32_S2048x32_1_0_0_1_n_n.lhsIdx (ix2 p k) ((ValueIdx.contrEquiv1 dot_S2048x512_S512x32_S2048x32_1_0_0_1_n_n 512 rfl rfl).symm d) = ix2 p d := funext fun ax => Fin.ext (by
    match ax with
    | ⟨0, _⟩ => exact lhsA_0 _ _
    | ⟨1, _⟩ => exact (lhsA_1 _ _).trans hd)
  have er : dot_S2048x512_S512x32_S2048x32_1_0_0_1_n_n.rhsIdx (ix2 p k) ((ValueIdx.contrEquiv1 dot_S2048x512_S512x32_S2048x32_1_0_0_1_n_n 512 rfl rfl).symm d) = ix2 d k := funext fun ax => Fin.ext (by
    match ax with
    | ⟨0, _⟩ => exact (rhsA_0 _ _).trans hd
    | ⟨1, _⟩ => exact rhsA_1 _ _)
  rw [el, er]

theorem lhsB_0 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
  rfl
theorem lhsB_1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem rhsB_0 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem rhsB_1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
  rfl

/-- The second product into the zero accumulator, at `(p, q)`: row `p` of the left operand against the right's one column. -/
theorem matmulB_apply (a : FVec Ideal S2048x32 .bf16) (b : FVec Ideal S32x1 .bf16) (p : Fin 2048) (q : Fin 1) :
    matmul dot_S2048x32_S32x1_S2048x1_1_0_0_1_n_n none a b (constant S2048x1 .f32 0x00000000#32) (ix2 p q)
      = ∑ k : Fin 32, a (ix2 p k) * b (ix2 k q) := by
  simp only [matmul]
  rw [Ideal.matmul_constant_zero_apply, ← Equiv.sum_comp (ValueIdx.contrEquiv1 dot_S2048x32_S32x1_S2048x1_1_0_0_1_n_n 32 rfl rfl).symm]
  refine Finset.sum_congr rfl fun k _ => ?_
  have hk := ValueIdx.contrEquiv1_symm_val dot_S2048x32_S32x1_S2048x1_1_0_0_1_n_n 32 rfl rfl k
  have el : dot_S2048x32_S32x1_S2048x1_1_0_0_1_n_n.lhsIdx (ix2 p q) ((ValueIdx.contrEquiv1 dot_S2048x32_S32x1_S2048x1_1_0_0_1_n_n 32 rfl rfl).symm k) = ix2 p k := funext fun ax => Fin.ext (by
    match ax with
    | ⟨0, _⟩ => exact lhsB_0 _ _
    | ⟨1, _⟩ => exact (lhsB_1 _ _).trans hk)
  have er : dot_S2048x32_S32x1_S2048x1_1_0_0_1_n_n.rhsIdx (ix2 p q) ((ValueIdx.contrEquiv1 dot_S2048x32_S32x1_S2048x1_1_0_0_1_n_n 32 rfl rfl).symm k) = ix2 k q := funext fun ax => Fin.ext (by
    match ax with
    | ⟨0, _⟩ => exact (rhsB_0 _ _).trans hk
    | ⟨1, _⟩ => exact rhsB_1 _ _)
  rw [el, er]

/-! ## The stored value at an index -/

/-- Row `p` of the block: its hidden units (the affine map of the row cut below at zero) against the column of `w2`. -/
theorem pay_apply (v0 : Vec Ideal S2048x512 .f32) (v2 : Vec Ideal S512x32 .f32) (v5 : Vec Ideal S32 .f32) (v12 : Vec Ideal S32x1 .f32)
    (p : Fin 2048) (q : Fin 1) :
    k0_pay1 (F := Ideal) v0 v2 v5 v12 (ix2 p q)
      = ∑ k : Fin 32, max ((∑ d : Fin 512, v0 (ix2 p d) * v2 (ix2 d k)) + v5 (ix1 k)) (Ideal.ofBits .f32 0x00000000#32) * v12 (ix2 k q) := by
  unfold k0_pay1
  refine (matmulB_apply _ _ p q).trans ?_
  refine Finset.sum_congr rfl fun k _ => ?_
  show (max ((matmul (F := Ideal) dot_S2048x512_S512x32_S2048x32_1_0_0_1_n_n none (truncf .bf16 v0 bitsLt_bf16_f32) (truncf .bf16 v2 bitsLt_bf16_f32) (constant S2048x32 .f32 0x00000000#32) (ix2 p k) : EReal)
        + (broadcastTo S2048x32 (shapeCast S1x32 v5 shapeCasts_S32_S1x32) broadcasts_S1x32_S2048x32 (ix2 p k) : EReal))
      (Ideal.ofBits .f32 0x00000000#32) : EReal) * (v12 (ix2 k q) : EReal) = _
  rw [matmulA_apply, ValueIdx.broadcastTo_1b_ab_apply, ValueIdx.shapeCast_a_1a_apply]
  rfl

/-! ## From the blocks to the array -/

variable (V : (c : Dev nD) → (b : Ref sig .tc) → Buf (Elt Ideal) ((c : Thread nD τ).loc b))

/-- The four operand arrays as the region finds them, at their literal types. -/
abbrev xArr (c : Dev nD) : (⟨2, ![8192, 512]⟩ : Shape).Idx → EReal := V c main_arg0
abbrev w1Arr (c : Dev nD) : (⟨2, ![512, 32]⟩ : Shape).Idx → EReal := V c main_arg1
abbrev b1Arr (c : Dev nD) : (⟨1, ![32]⟩ : Shape).Idx → EReal := V c main_arg2
abbrev w2Arr (c : Dev nD) : (⟨2, ![32, 1]⟩ : Shape).Idx → EReal := V c main_arg3

/-- The printed index maps over the grid: the block of `x` moves with the output's row block, the three parameter
    arrays are read whole at every point, and the output's row-block index runs over `0 … 3`. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) ≤ 3 ∧ win0_4.index t (1 : Fin 2) = 0 :=
  (by decide +kernel : ∀ t : Fin grid0.N, _)

/-- Every row-block index is some point's. -/
theorem idx_onto : ∀ (q0 : Fin 4), ∃ t : Fin cfg0.N, win0_4.index t = ![q0.val, 0] :=
  (by decide +kernel : ∀ (q0 : Fin 4), ∃ t : Fin grid0.N, win0_4.index t = ![q0.val, 0])

/-- What point `t` writes back is block `t` of the projections' column of the operand arrays as the region finds them. -/
theorem flushed_eq (c : Dev nD) (t : Fin cfg0.N) :
    (dat0 V c).flushed 4 t
      = ((cfg0.win 4).blk t).view.read (Elt Ideal) (Cert.Spec.projCol (xArr V c) (w1Arr V c) (b1Arr V c) (w2Arr V c)) := by
  show (cfg0.win 4).cut (grid0.coords t) ((dat0 V c).after 4 t) = _
  rw [after0_4]
  unfold out0_4
  rw [View.canon_unit_zero zero2]
  simp only [View.ld_unit_zero (S := S2048x512) zero2, View.ld_unit_zero (S := S512x32) zero2, View.ld_unit_zero (S := S32) zero1,
    View.ld_unit_zero (S := S32x1) zero2]
  obtain ⟨e0, e1, e2, e3, e4, e5, e6, -, e8⟩ := idx_facts t
  funext j
  obtain ⟨p, q, rfl⟩ : ∃ (p : Fin 2048) (q : Fin 1), j = ix2 p q := ⟨j 0, j 1, eq_ix2 j⟩
  refine (pay_apply (iblk0 V c 0 t) (iblk0 V c 1 t) (iblk0 V c 2 t) (iblk0 V c 3 t) p q).trans ?_
  show (∑ k : Fin 32, max ((∑ d : Fin 512, xArr V c (((cfg0.win 0).blk t).view.emb (ix2 p d)) * w1Arr V c (((cfg0.win 1).blk t).view.emb (ix2 d k)))
          + b1Arr V c (((cfg0.win 2).blk t).view.emb (ix1 k))) (Ideal.ofBits .f32 0x00000000#32)
        * w2Arr V c (((cfg0.win 3).blk t).view.emb (ix2 k q)))
    = Cert.Spec.proj (xArr V c) (w1Arr V c) (b1Arr V c) (w2Arr V c) ((((cfg0.win 4).blk t).view.emb (ix2 p q)) 0)
  have h0 : ∀ d : Fin 512, ((cfg0.win 0).blk t).view.emb (ix2 p d) = ix2 ((((cfg0.win 4).blk t).view.emb (ix2 p q)) 0) d := fun d => by
    funext a; apply Fin.ext
    match a with
    | ⟨0, _⟩ => show win0_0.index t (0 : Fin 2) * 2048 + 1 * p.val = win0_4.index t (0 : Fin 2) * 2048 + 1 * p.val; omega
    | ⟨1, _⟩ => show win0_0.index t (1 : Fin 2) * 512 + 1 * d.val = d.val; omega
  have h1 : ∀ (d : Fin 512) (k : Fin 32), ((cfg0.win 1).blk t).view.emb (ix2 d k) = ix2 d k := fun d k => by
    funext a; apply Fin.ext
    match a with
    | ⟨0, _⟩ => show win0_1.index t (0 : Fin 2) * 512 + 1 * d.val = d.val; omega
    | ⟨1, _⟩ => show win0_1.index t (1 : Fin 2) * 32 + 1 * k.val = k.val; omega
  have h2 : ∀ k : Fin 32, ((cfg0.win 2).blk t).view.emb (ix1 k) = ix1 k := fun k => by
    funext a; apply Fin.ext
    match a with
    | ⟨0, _⟩ => show win0_2.index t (0 : Fin 1) * 32 + 1 * k.val = k.val; omega
  have h3 : ∀ k : Fin 32, ((cfg0.win 3).blk t).view.emb (ix2 k q) = ix2 k (0 : Fin 1) := fun k => by
    funext a; apply Fin.ext
    match a with
    | ⟨0, _⟩ => show win0_3.index t (0 : Fin 2) * 32 + 1 * k.val = k.val; omega
    | ⟨1, _⟩ => show win0_3.index t (1 : Fin 2) * 1 + 1 * q.val = 0; have := q.isLt; omega
  simp only [h0, h1, h2, h3]
  rfl

/-- An index of the column is in point `t`'s block iff each coordinate is in the block's range on its axis. -/
theorem mem_blk (t : Fin cfg0.N) (i : S8192x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v0).slice (win0_4.rect t)).set ↔ _
  rw [View.set_slice_whole, Rect.mem_set_unit]
  exact Iff.rfl

/-- The four blocks cover the column: row `r` lies in the block of the point with row-block index `r / 2048`. -/
theorem cover (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1 ≤ (i 1).val ∧ (i 1).val < win0_4.index t (1 : Fin 2) * 1 + 1; omega

/-- The projections' array after the region: `Spec.projCol` of the four operand arrays as the region found them. -/
theorem final (c : Dev nD) :
    (dat0 V c).arrAt 4 cfg0.N = Cert.Spec.projCol (xArr V c) (w1Arr V c) (b1Arr V c) (w2Arr V c) :=
  (dat0 V c).arrAt_eq_of_cover 4 _ (fun t _ => flushed_eq V c t) cover

end Cert.KernelIdeal.ProjRegion

end
-- ==== Proof.Whole.lean ====
/-
  The two regions and the reshape between them, composed. The first region leaves the projections' column in `main_v0`;
  the host reshape lays the same column as a row in `main_v1` and touches nothing else; the second region, entered from
  those contents, leaves in `main_v2` the pairwise sum of the column, the row and `b2`, which is the specification.
-/
import proofs.«163449_j7275674599529_1_alg».proof.Proof.RunNamed
import proofs.«163449_j7275674599529_1_alg».proof.Proof.PairRegion
import proofs.«163449_j7275674599529_1_alg».proof.Proof.ProjRegion
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The specification at the launch memory's five argument arrays. -/
abbrev spec (c : Dev nD) : (⟨2, ![8192, 8192]⟩ : Shape).Idx → EReal :=
  Cert.Spec.gaps (m ((c : Thread nD τ).loc main_arg0)) (m ((c : Thread nD τ).loc main_arg1)) (m ((c : Thread nD τ).loc main_arg2))
    (m ((c : Thread nD τ).loc main_arg3)) (m ((c : Thread nD τ).loc main_arg4))

/-- The projections' column at the launch memory's first four argument arrays. -/
abbrev col (c : Dev nD) : (⟨2, ![8192, 1]⟩ : Shape).Idx → EReal :=
  Cert.Spec.projCol (m ((c : Thread nD τ).loc main_arg0)) (m ((c : Thread nD τ).loc main_arg1)) (m ((c : Thread nD τ).loc main_arg2))
    (m ((c : Thread nD τ).loc main_arg3))

/-- The reshape between the regions writes `main_v1` only. -/
theorem reshape_keeps (c : Dev nD) (b : Ref sig .tc) (hb : main_v1 ≠ b) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb.symm))

/-- Region 1 finds the projections' column in `main_v0`: region 0 left it there and the reshape does not write it. -/
theorem col_eq (c : Dev nD) : PairRegion.colArr (V2 m ρ) c = col m c := by
  show W2 m ρ c (Proc.devRef .tc main_v0) = _
  refine (reshape_keeps m ρ c main_v0 (by decide)).trans ?_
  refine (W1_arr m ρ c 4).trans ?_
  exact ProjRegion.final (V0 m ρ) c

/-- Region 1 finds the same column laid as a row in `main_v1`: the reshape's result. -/
theorem row_eq (c : Dev nD) :
    PairRegion.rowArr (V2 m ρ) c = shapeCast ⟨2, ![1, 8192]⟩ (col m c) shapeCasts_S8192x1_S1x8192 := by
  have h : (W2 m ρ c (Proc.devRef .tc main_v1) : (⟨2, ![1, 8192]⟩ : Shape).Idx → EReal)
      = shapeCast ⟨2, ![1, 8192]⟩ (W1 m ρ c (Proc.devRef .tc main_v0) : (⟨2, ![8192, 1]⟩ : Shape).Idx → EReal) shapeCasts_S8192x1_S1x8192 := by
    show StableHlo.after hostOps1 (W1 m ρ c) (Proc.devRef .tc main_v1) = _
    after_results
    rfl
  show W2 m ρ c (Proc.devRef .tc main_v1) = _
  rw [h]
  refine congrArg (fun a => shapeCast ⟨2, ![1, 8192]⟩ a shapeCasts_S8192x1_S1x8192) ?_
  refine (W1_arr m ρ c 4).trans ?_
  exact ProjRegion.final (V0 m ρ) c

/-- Region 1 finds `b2` as launched. -/
theorem one_eq (c : Dev nD) : PairRegion.oneArr (V2 m ρ) c = m ((c : Thread nD τ).loc main_arg4) := by
  show W2 m ρ c (Proc.devRef .tc main_arg4) = _
  refine (reshape_keeps m ρ c main_arg4 (by decide)).trans ?_
  exact W1_of_ne m ρ c main_arg4 (by decide)

/-- The result array at the last boundary is the specification of the launch memory's argument arrays. -/
theorem result (c : Dev nD) : W3 m ρ c (Proc.devRef .tc main_v2) = spec m c := by
  refine (W3_arr m ρ c 3).trans ?_
  rw [PairRegion.final, col_eq, row_eq, one_eq]
  exact Cert.Spec.gaps_eq_pairSum _ _ _ _ _ _

/-- Every weakly fair execution of the idealized kernel terminates with the result array at the specification of the
    argument arrays and the arguments unchanged. -/
theorem run : θ_run defs (onTc (τ := τ) (main (F := Ideal))) ⟨m, fun _ => 0, ρ⟩ (fun r => ∀ c : Dev nD,
      r.2.mem ((c.tc : Thread nD τ).loc main_v2) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (Cert.KernelIdeal.Named.run m ρ)

end Cert.KernelIdeal.Whole

end
-- ==== Proof.RefValue.lean ====
/-
  The reference's result, stage by stage, is the specification: its first `dot_general` and the broadcast bias under the
  maximum with zero are the hidden units, its second `dot_general` reshaped to a vector the projections, and the two
  broadcasts of that vector added to each other and to the reshaped scalar `b2` the result `(proj i + proj j) + b2[0]`.
-/
import proofs.«163449_j7275674599529_1_alg».proof.Proof.Gen.ReferenceIdeal.Read
import proofs.«163449_j7275674599529_1_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The `relu` stage at `(r, k)` is hidden unit `k` of row `r`. -/
theorem hidden_eq (x0 : (⟨S8192x512, .f32⟩ : BufTy).Contents (Elt Ideal)) (x1 : (⟨S512x32, .f32⟩ : BufTy).Contents (Elt Ideal)) (x2 : (⟨S32, .f32⟩ : BufTy).Contents (Elt Ideal)) (r : Fin 8192) (k : Fin 32) :
    val_main_v4 (F := Ideal) x0 x1 x2 (ix2 r k) = Cert.Spec.hidden x0 x1 x2 r k := by
  have el : ∀ d : Fin 512, lidx_main_v0 (ix2 r k) d = ix2 r d := fun d => funext fun a => Fin.ext (by
    match a with
    | ⟨0, _⟩ => rfl
    | ⟨1, _⟩ => rfl)
  have er : ∀ d : Fin 512, ridx_main_v0 (ix2 r k) d = ix2 d k := fun d => funext fun a => Fin.ext (by
    match a with
    | ⟨0, _⟩ => rfl
    | ⟨1, _⟩ => rfl)
  have eb : idx_main_v1 (idx_main_v2 (ix2 r k)) = ix1 k := funext fun a => Fin.ext (by
    match a with
    | ⟨0, _⟩ => rfl)
  rw [val_main_v4_apply, val_main_v3_apply, val_main_v0_apply, val_main_v2_apply, val_main_v1_apply, val_main_call0_v0_apply,
    val_main_call0_cst_apply]
  simp only [el, er, eb]
  rfl

/-- The reshaped second product at `r` is the projection of row `r`. -/
theorem proj_eq (x0 : (⟨S8192x512, .f32⟩ : BufTy).Contents (Elt Ideal)) (x1 : (⟨S512x32, .f32⟩ : BufTy).Contents (Elt Ideal)) (x2 : (⟨S32, .f32⟩ : BufTy).Contents (Elt Ideal)) (x3 : (⟨S32x1, .f32⟩ : BufTy).Contents (Elt Ideal)) (r : Fin 8192) :
    val_main_v6 (F := Ideal) x0 x1 x2 x3 (ix1 r) = Cert.Spec.proj x0 x1 x2 x3 r := by
  have e6 : idx_main_v6 (ix1 r) = ix2 r (0 : Fin 1) := funext fun a => Fin.ext (by
    match a with
    | ⟨0, _⟩ => show r.val / 1 = r.val; exact Nat.div_one _
    | ⟨1, _⟩ => rfl)
  have el : ∀ k : Fin 32, lidx_main_v5 (ix2 r (0 : Fin 1)) k = ix2 r k := fun k => funext fun a => Fin.ext (by
    match a with
    | ⟨0, _⟩ => rfl
    | ⟨1, _⟩ => rfl)
  have er : ∀ k : Fin 32, ridx_main_v5 (ix2 r (0 : Fin 1)) k = ix2 k (0 : Fin 1) := fun k => funext fun a => Fin.ext (by
    match a with
    | ⟨0, _⟩ => rfl
    | ⟨1, _⟩ => rfl)
  rw [val_main_v6_apply, e6, val_main_v5_apply]
  simp only [el, er, hidden_eq]
  rfl

/-- The reference's result is the specification. -/
theorem result_eq (x0 : (⟨S8192x512, .f32⟩ : BufTy).Contents (Elt Ideal)) (x1 : (⟨S512x32, .f32⟩ : BufTy).Contents (Elt Ideal)) (x2 : (⟨S32, .f32⟩ : BufTy).Contents (Elt Ideal)) (x3 : (⟨S32x1, .f32⟩ : BufTy).Contents (Elt Ideal)) (x4 : (⟨S1, .f32⟩ : BufTy).Contents (Elt Ideal)) :
    val_main_v14 (F := Ideal) x0 x1 x2 x3 x4 = Cert.Spec.gaps x0 x1 x2 x3 x4 := by
  funext i
  obtain ⟨p, q, rfl⟩ : ∃ (p : Fin 8192) (q : Fin 8192), i = ix2 p q := ⟨i 0, i 1, eq_ix2 i⟩
  have e9 : idx_main_v7 (idx_main_v9 (ix2 p q)) = ix1 p := funext fun a => Fin.ext (by
    match a with
    | ⟨0, _⟩ => rfl)
  have e10 : idx_main_v8 (idx_main_v10 (ix2 p q)) = ix1 q := funext fun a => Fin.ext (by
    match a with
    | ⟨0, _⟩ => rfl)
  have e12 : val_main_v12 (F := Ideal) x4 (idx_main_v13 (ix2 p q)) = x4 (ix1 (0 : Fin 1)) := by
    unfold val_main_v12
    refine shapeCast_apply x4 shapeCasts_S1_S_ _ (ix1 (0 : Fin 1)) ?_
    rw [Shape.rowMajor_val_one]
    have h : (S_.rowMajor (idx_main_v13 (ix2 p q))).val < S_.numel := (S_.rowMajor (idx_main_v13 (ix2 p q))).isLt
    have h1 : S_.numel = 1 := rfl
    show 0 = _
    omega
  rw [val_main_v14_apply, val_main_v11_apply, val_main_v9_apply, val_main_v7_apply, e9, val_main_v10_apply, val_main_v8_apply, e10,
    val_main_v13_apply, e12, proj_eq, proj_eq]
  rfl

end Cert.ReferenceIdeal.RefValue

end
-- ==== Proof.lean ====
/-
  The pairwise "gaps" of a two-layer projection: for `x` of 8192 rows, `proj r = ∑_k max (∑_d x[r,d]·W1[d,k] + b1[k]) 0 · w2[k,0]`
  and the result at `(i, j)` is `(proj i + proj j) + b2[0]`.

  The kernel computes it in two regions. The first writes the projections as an 8192 × 1 column, four row blocks of
  2048: its two matrix products into zero accumulators are plain sums over the extended reals and its changes of float
  format the identity. A host reshape lays that column as a 1 × 8192 row. The second region writes, block by block
  over a 4 × 4 grid, the column's entry plus the row's entry plus `b2[0]`. The reference computes the same sums with two
  `dot_general`s, a maximum with zero, and broadcasts of the projections along either axis; both sides add in the same
  grouping, so no law beyond reading each stage at an index is needed and the precondition is never opened.

  The frames of the two kernel programs are the generated ones; the reference's frame is its generated run with the
  result dropped; the idealization rewrote nothing, so `preserves` is `True`.
-/
import proofs.«163449_j7275674599529_1_alg».proof.Defs
import proofs.«163449_j7275674599529_1_alg».proof.Proof.Gen.Kernel
import proofs.«163449_j7275674599529_1_alg».proof.Proof.Gen.Kernel.Skeleton
import proofs.«163449_j7275674599529_1_alg».proof.Proof.Gen.Kernel.Launch
import proofs.«163449_j7275674599529_1_alg».proof.Proof.Gen.Kernel.Points
import proofs.«163449_j7275674599529_1_alg».proof.Proof.Gen.Kernel.Frame
import proofs.«163449_j7275674599529_1_alg».proof.Proof.Gen.KernelIdeal
import proofs.«163449_j7275674599529_1_alg».proof.Proof.Gen.KernelIdeal.Skeleton
import proofs.«163449_j7275674599529_1_alg».proof.Proof.Gen.KernelIdeal.Launch
import proofs.«163449_j7275674599529_1_alg».proof.Proof.Gen.KernelIdeal.Points
import proofs.«163449_j7275674599529_1_alg».proof.Proof.Gen.KernelIdeal.Frame
import proofs.«163449_j7275674599529_1_alg».proof.Proof.Gen.ReferenceIdeal
import proofs.«163449_j7275674599529_1_alg».proof.Proof.Gen.ReferenceIdeal.Run
import proofs.«163449_j7275674599529_1_alg».proof.Proof.Gen.ReferenceIdeal.Read
import proofs.«163449_j7275674599529_1_alg».proof.Proof.Gen.Pre_finite_inputs
import proofs.«163449_j7275674599529_1_alg».proof.Proof.Whole
import proofs.«163449_j7275674599529_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `(proj i + proj j) + b2[0]` of argument arrays that agree. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
